-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x16 : Shape := ⟨3, ![128, 1024, 16]⟩
abbrev S16x64 : Shape := ⟨2, ![16, 64]⟩
abbrev S16 : Shape := ⟨1, ![16]⟩
abbrev S_ : Shape := ⟨0, ![]⟩

class Facts : Prop where
  bcast_S_S128x1024x16 : S_.BroadcastsInDim S128x1024x16 (![] : Fin 0 → Fin S128x1024x16.rank)
  reducesTo_S128x1024x16_S_d0_1_2 : S128x1024x16.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S128x1024x16 .f32) (main_arg1 : FVec F S16x64 .f32) (main_arg2 : FVec F S16 .f32) (main_arg3 : FVec F S16x64 .f32) : IVec S_ 1 :=
  let main_v0 : FVec F S128x1024x16 .f32 := Host.absf main_arg0
  let main_cst : FVec F S_ .f32 := constant S_ .f32 0x7F800000#32
  let main_v1 : FVec F S128x1024x16 .f32 := broadcastInDim S128x1024x16 ![] bcast_S_S128x1024x16 main_cst
  let main_v2 : IVec S128x1024x16 1 := cmpf .olt main_v0 main_v1
  let main_c : IVec S_ 1 := constantI S_ 1 1#1
  let main_v3 : IVec S_ 1 := (fun x v => Host.reduce IntOp.andi x v reducesTo_S128x1024x16_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Kernel.lean ====
abbrev S128x1024x16 : Shape := ⟨3, ![128, 1024, 16]⟩
abbrev S16x64 : Shape := ⟨2, ![16, 64]⟩
abbrev S16 : Shape := ⟨1, ![16]⟩
abbrev S131072x16 : Shape := ⟨2, ![131072, 16]⟩
abbrev S16x1 : Shape := ⟨2, ![16, 1]⟩
abbrev S512x16 : Shape := ⟨2, ![512, 16]⟩
abbrev S512x16x1 : Shape := ⟨3, ![512, 16, 1]⟩
abbrev S1x16x64 : Shape := ⟨3, ![1, 16, 64]⟩
abbrev S512x16x64 : Shape := ⟨3, ![512, 16, 64]⟩
abbrev S1x16x1 : Shape := ⟨3, ![1, 16, 1]⟩
abbrev S_ : Shape := ⟨0, ![]⟩

abbrev nBuf : Space → Nat
  | .hbm => 18
  | .vmem => 6
  | .smem => 0
  | _ => 0

abbrev bufTy : (tb : Table) → Fin (tcTables nBuf tb) → BufTy
  | .hbm, ⟨0, _⟩ => ⟨S128x1024x16, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S131072x16, .f32⟩
  | .hbm, ⟨5, _⟩ => ⟨S16x1, .f32⟩
  | .hbm, ⟨6, _⟩ => ⟨S16x64, .f32⟩
  | .hbm, ⟨7, _⟩ => ⟨S16x64, .f32⟩
  | .hbm, ⟨8, _⟩ => ⟨S16x64, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x16, .f32⟩
  | .local _ .vmem, ⟨1, _⟩ => ⟨S512x16, .f32⟩
  | .local _ .vmem, ⟨2, _⟩ => ⟨S16x64, .f32⟩
  | .local _ .vmem, ⟨3, _⟩ => ⟨S16x1, .f32⟩
  | .local _ .vmem, ⟨4, _⟩ => ⟨S16x64, .f32⟩
  | .local _ .vmem, ⟨5, _⟩ => ⟨S16x64, .f32⟩
  | _, _ => ⟨S128x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v31 : BitVec 1 := Scalar.cmpi .eq arg0 c255_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S128x1024x16_S131072x16 : S128x1024x16.ShapeCasts S131072x16
  shapeCasts_S16_S16x1 : S16.ShapeCasts S16x1
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S512x16_S512x16x1 : S512x16.ShapeCasts S512x16x1
  shapeCasts_S16x64_S1x16x64 : S16x64.ShapeCasts S1x16x64
  broadcasts_S512x16x1_S512x16x64 : S512x16x1.Broadcasts S512x16x64
  broadcasts_S1x16x64_S512x16x64 : S1x16x64.Broadcasts S512x16x64
  shapeCasts_S16x1_S1x16x1 : S16x1.ShapeCasts S1x16x1
  broadcasts_S1x16x1_S512x16x64 : S1x16x1.Broadcasts S512x16x64
  natLt_1_32 : 1 < 32
  reduces_S512x16x64_S16x64 : S512x16x64.Reduces [0] S16x64
  broadcasts_S16x1_S16x64 : S16x1.Broadcasts S16x64
  reducesTo_S16x64_S16_d1 : S16x64.ReducesTo [1] S16
  h_S_ : 0 < S_.numel
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S131072x16.size a
  hwx0_0 : ∀ i : grid0.Coords, EltTy.bits .f32 = 32 ∨ (Rect.block (s := S131072x16) S512x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)

variable [Facts₀]

abbrev win0_0 : Pipeline.Window sig grid0 :=
  Pipeline.Window.ofSpec (Memref.whole main_v0) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x1024x16 : Shape := ⟨3, ![128, 1024, 16]⟩
abbrev S16x64 : Shape := ⟨2, ![16, 64]⟩
abbrev S16 : Shape := ⟨1, ![16]⟩
abbrev S131072x16 : Shape := ⟨2, ![131072, 16]⟩
abbrev S131072x16x1 : Shape := ⟨3, ![131072, 16, 1]⟩
abbrev S1x16x64 : Shape := ⟨3, ![1, 16, 64]⟩
abbrev S131072x16x64 : Shape := ⟨3, ![131072, 16, 64]⟩
abbrev S1x16x1 : Shape := ⟨3, ![1, 16, 1]⟩
abbrev S_ : Shape := ⟨0, ![]⟩
abbrev S16x1 : Shape := ⟨2, ![16, 1]⟩

abbrev nBuf : Space → Nat
  | .hbm => 43
  | .vmem => 0
  | .smem => 0
  | _ => 0

abbrev bufTy : (tb : Table) → Fin (tcTables nBuf tb) → BufTy
  | .hbm, ⟨0, _⟩ => ⟨S128x1024x16, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S131072x16, .f32⟩
  | .hbm, ⟨5, _⟩ => ⟨S131072x16x1, .f32⟩
  | .hbm, ⟨6, _⟩ => ⟨S1x16x64, .f32⟩
  | .hbm, ⟨7, _⟩ => ⟨S131072x16x64, .f32⟩
  | .hbm, ⟨8, _⟩ => ⟨S131072x16x64, .f32⟩
  | .hbm, ⟨9, _⟩ => ⟨S131072x16x64, .f32⟩
  | .hbm, ⟨10, _⟩ => ⟨S131072x16x64, .f32⟩
  | .hbm, ⟨11, _⟩ => ⟨S1x16x1, .f32⟩
  | .hbm, ⟨12, _⟩ => ⟨S_, .f32⟩
  | .hbm, ⟨13, _⟩ => ⟨S1x16x1, .f32⟩
  | .hbm, ⟨14, _⟩ => ⟨S1x16x1, .f32⟩
  | .hbm, ⟨15, _⟩ => ⟨S131072x16x64, .f32⟩
  | .hbm, ⟨16, _⟩ => ⟨S131072x16x64, .f32⟩
  | .hbm, ⟨17, _⟩ => ⟨S_, .f32⟩
  | .hbm, ⟨18, _⟩ => ⟨S131072x16x64, .f32⟩
  | .hbm, ⟨19, _⟩ => ⟨S131072x16x64, .f32⟩
  | .hbm, ⟨20, _⟩ => ⟨S_, .f32⟩
  | .hbm, ⟨21, _⟩ => ⟨S131072x16x64, .f32⟩
  | .hbm, ⟨22, _⟩ => ⟨S131072x16x64, .i1⟩
  | .hbm, ⟨23, _⟩ => ⟨S131072x16x64, .f32⟩
  | .hbm, ⟨24, _⟩ => ⟨S_, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x1, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S128x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  shapeCasts_S128x1024x16_S131072x16 : S128x1024x16.ShapeCasts S131072x16
  bcast_S131072x16_S131072x16x1_0_1 : S131072x16.BroadcastsInDim S131072x16x1 (![0, 1] : Fin 2 → Fin S131072x16x1.rank)
  bcast_S16x64_S1x16x64_1_2 : S16x64.BroadcastsInDim S1x16x64 (![1, 2] : Fin 2 → Fin S1x16x64.rank)
  bcast_S131072x16x1_S131072x16x64_0_1_2 : S131072x16x1.BroadcastsInDim S131072x16x64 (![0, 1, 2] : Fin 3 → Fin S131072x16x64.rank)
  bcast_S1x16x64_S131072x16x64_0_1_2 : S1x16x64.BroadcastsInDim S131072x16x64 (![0, 1, 2] : Fin 3 → Fin S131072x16x64.rank)
  bcast_S16_S1x16x1_1 : S16.BroadcastsInDim S1x16x1 (![1] : Fin 1 → Fin S1x16x1.rank)
  bcast_S_S1x16x1 : S_.BroadcastsInDim S1x16x1 (![] : Fin 0 → Fin S1x16x1.rank)
  bcast_S1x16x1_S131072x16x64_0_1_2 : S1x16x1.BroadcastsInDim S131072x16x64 (![0, 1, 2] : Fin 3 → Fin S131072x16x64.rank)
  bcast_S_S131072x16x64 : S_.BroadcastsInDim S131072x16x64 (![] : Fin 0 → Fin S131072x16x64.rank)
  reducesTo_S131072x16x64_S16x64_d0 : S131072x16x64.ReducesTo [0] S16x64
  h_S_ : 0 < S_.numel
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  reducesTo_S16x64_S16_d1 : S16x64.ReducesTo [1] S16
  bcast_S_S16 : S_.BroadcastsInDim S16 (![] : Fin 0 → Fin S16.rank)
  reducesTo_S16_S_d0 : S16.ReducesTo [0] S_

variable [Facts₀]

class Facts : Prop extends Facts₀ where

variable [Facts]
-- ==== Proof.Spec.lean ====
/-
  The histogram loss, as one function of the argument arrays.

  For a sample value `x`, a bin centre `l` and a bin width `d` the membership indicator is
  `ind x l d = [max (d·½ − |x − l|) 0 > 0]`, read as the real number 0 or 1.  For feature `f` and bin `b` the
  estimated density is `(∑ₙ ind (X n f) (L f b) (D f)) / N / D f` over the `N = 131072` samples, and the loss is the
  mean over features of the mean over bins of `|density − target|`.

  Both programs compute exactly this; they differ only in how the sum over the samples is grouped (one pass of 131072
  terms, or 256 consecutive tiles of 512), which addition on the extended reals does not see: it is commutative and
  associative there, so no finiteness of the inputs is used.
-/
import Idealize.ShloMosaic.PureOps.Ideal
import Idealize.ShloMosaic.PureOps.Ideal.Laws
import Idealize.ShloMosaic.Lib.ValueIdx

noncomputable section

open scoped BigOperators

namespace Cert.Histo

open Idealize.ShloMosaic Idealize.ShloMosaic.ValueIdx

/-- Samples by feature, `[131072, 16]`. -/
abbrev SX : Shape := ⟨2, ![131072, 16]⟩
/-- Features by bins, `[16, 64]`. -/
abbrev SL : Shape := ⟨2, ![16, 64]⟩
/-- One entry per feature, `[16]`. -/
abbrev SD : Shape := ⟨1, ![16]⟩
/-- One entry per feature, as a column `[16, 1]`. -/
abbrev SC : Shape := ⟨2, ![16, 1]⟩
/-- A scalar. -/
abbrev S0 : Shape := ⟨0, ![]⟩

/-- The indicator that `x` lies strictly within half a bin width `d` of the centre `l`, spelled as the programs spell
    it — `max (d·½ − |x − l|) 0 > 0` — and read as the real 0 or 1. -/
def ind (x l d : Ideal .f32) : Ideal .f32 :=
  FloatOps.uitofp .f32 (FloatOps.cmpf .ogt
    (FloatOps.maximumf
      (FloatOps.subf (FloatOps.mulf d (FloatOps.ofBits .f32 0x3F000000#32)) (FloatOps.absf (FloatOps.subf x l)))
      (FloatOps.ofBits .f32 0x00000000#32))
    (FloatOps.ofBits .f32 0x00000000#32))

/-- A one-bit comparison result widened to 32 bits and read SIGNED is the bit read unsigned: widening by zeros keeps the
    sign bit clear, so both readings are 0 or 1. -/
theorem toInt_setWidth_one (c : BitVec 1) : (c.setWidth 32).toInt = (c.toNat : ℤ) := by
  revert c; decide

/-- The same, as the two conversions to a float at the ideal values. -/
theorem sitofp_widen (c : BitVec 1) :
    FloatOps.sitofp (F := Ideal) .f32 (c.setWidth 32) = FloatOps.uitofp (F := Ideal) .f32 c := by
  show (((c.setWidth 32).toInt : ℝ) : EReal) = ((c.toNat : ℝ) : EReal)
  rw [toInt_setWidth_one]; norm_cast

/-- How many of the samples fall in bin `(f, b)`: the sum of the indicator over all `131072` samples. -/
def count (X : SX.Idx → Ideal .f32) (L : SL.Idx → Ideal .f32) (D : SD.Idx → Ideal .f32) (j : SL.Idx) : Ideal .f32 :=
  ∑ n : Fin 131072, ind (X (ix2 n (j 0))) (L j) (D (ix1 (j 0)))

/-- The estimated density of bin `(f, b)`: the fraction of the samples in it, per unit of bin width. -/
def dens (X : SX.Idx → Ideal .f32) (L : SL.Idx → Ideal .f32) (D : SD.Idx → Ideal .f32) : SL.Idx → Ideal .f32 :=
  fun j => Ideal.div (Ideal.div (count X L D j) (Ideal.ofBits .f32 0x48000000#32)) (D (ix1 (j 0)))

/-! ## The sum over the samples, tile by tile -/

/-- The indicator of sample number `k` for bin `j`, as a function of a natural number (zero past the last sample), so that
    sums over initial segments of the samples can be written over `Finset.range`. -/
def term (X : SX.Idx → Ideal .f32) (L : SL.Idx → Ideal .f32) (D : SD.Idx → Ideal .f32) (j : SL.Idx) (k : ℕ) : EReal :=
  if h : k < 131072 then ind (X (ix2 ⟨k, h⟩ (j 0))) (L j) (D (ix1 (j 0))) else 0

/-- The count over the first `K` samples. -/
def upto (X : SX.Idx → Ideal .f32) (L : SL.Idx → Ideal .f32) (D : SD.Idx → Ideal .f32) (j : SL.Idx) (K : ℕ) : EReal :=
  ∑ k ∈ Finset.range K, term X L D j k

/-- No samples, no count. -/
theorem upto_zero (X : SX.Idx → Ideal .f32) (L : SL.Idx → Ideal .f32) (D : SD.Idx → Ideal .f32) (j : SL.Idx) :
    upto X L D j 0 = 0 := by
  unfold upto; rw [Finset.range_zero, Finset.sum_empty]

/-- One more tile of 512 samples adds that tile's indicators. -/
theorem upto_tile (X : SX.Idx → Ideal .f32) (L : SL.Idx → Ideal .f32) (D : SD.Idx → Ideal .f32) (j : SL.Idx) (n : ℕ) :
    upto X L D j (512 * (n + 1)) = upto X L D j (512 * n) + ∑ r : Fin 512, term X L D j (512 * n + r.val) := by
  unfold upto
  rw [show 512 * (n + 1) = 512 * n + 512 by ring, Finset.sum_range_add]
  exact congrArg (_ + ·) (Finset.sum_range fun x => term X L D j (512 * n + x))

/-- Over all the samples the count so far is the count. -/
theorem upto_all (X : SX.Idx → Ideal .f32) (L : SL.Idx → Ideal .f32) (D : SD.Idx → Ideal .f32) (j : SL.Idx) :
    upto X L D j 131072 = count X L D j := by
  unfold upto count
  rw [Finset.sum_range]
  exact Finset.sum_congr rfl fun k _ => by unfold term; rw [dif_pos k.isLt]

/-- A sample inside the array: the term is the indicator there. -/
theorem term_lt (X : SX.Idx → Ideal .f32) (L : SL.Idx → Ideal .f32) (D : SD.Idx → Ideal .f32) (j : SL.Idx) (k : ℕ)
    (h : k < 131072) : term X L D j k = ind (X (ix2 ⟨k, h⟩ (j 0))) (L j) (D (ix1 (j 0))) := by
  unfold term; rw [dif_pos h]

end Cert.Histo

end
-- ==== Proof.Loss.lean ====
/-
  The last lines of both programs: from the estimated densities `d` and the target densities `a` (both `[16, 64]`) to the
  loss — the mean over the 64 bins of `|d − a|`, then the mean over the 16 features.  Both programs end with exactly these
  host operations, so they are stated once, as one function, and never opened: the two results are equal because the two
  density arrays are.
-/
import Idealize.ShloMosaic.PureOps
import Idealize.ShloMosaic.PureOps.Ideal
import proofs.«126333_j79645873537299_1_alg».proof.Proof.Spec

noncomputable section

namespace Cert.Histo

open Idealize.ShloMosaic

/-- The loss of a density array against the target: `mean_f (mean_b |d f b − a f b|)`, as the host computes it (a sum
    from zero along the bins divided by 64, then a sum from zero along the features divided by 16). -/
def loss (d a : FVec Ideal SL .f32) : FVec Ideal S0 .f32 :=
  Host.divf
    (Host.reduceAdd
      (Host.divf
        (Host.reduceAdd (Host.absf (subf d a)) (constant S0 .f32 0x00000000#32)
          (by decide : SL.ReducesTo [1] SD) (by decide : 0 < S0.numel))
        (broadcastInDim SD ![] (by decide : S0.BroadcastsInDim SD (![] : Fin 0 → Fin SD.rank))
          (constant S0 .f32 0x42800000#32)))
      (constant S0 .f32 0x00000000#32) (by decide : SD.ReducesTo [0] S0) (by decide : 0 < S0.numel))
    (constant S0 .f32 0x41800000#32)

end Cert.Histo

end
-- ==== Proof.RefValue.lean ====
/-
  The reference computes the specification.

  Read one operation at a time, the reference's indicator at sample `k`, feature `f` and bin `b` is `ind` of the sample's
  value, the bin's centre and the feature's bin width (the broadcasts only route the three operands to the index); its
  reduction over the sample axis is the count from zero; the two quotients are the density; and the remaining lines are
  the loss.
-/
import proofs.«126333_j79645873537299_1_alg».proof.Proof.Gen.ReferenceIdeal.Read
import proofs.«126333_j79645873537299_1_alg».proof.Proof.Spec
import proofs.«126333_j79645873537299_1_alg».proof.Proof.Loss

noncomputable section

namespace Cert.Histo.Ref

open Idealize.ShloMosaic Idealize.ShloMosaic.ValueIdx
open Cert.ReferenceIdeal Cert.ReferenceIdeal.Read

/-- The indices the broadcasts route: the sample array is read at (sample, feature), -/
theorem route_x (j : S16x64.Idx) (k : Fin 131072) :
    idx_main_v1 (idx_main_v3 (idx_main_v17 j k)) = ix2 k (j 0) :=
  funext fun a => match a with | ⟨0, _⟩ => rfl | ⟨1, _⟩ => rfl

/-- the centres at (feature, bin), -/
theorem route_l (j : S16x64.Idx) (k : Fin 131072) :
    idx_main_v2 (idx_main_v4 (idx_main_v17 j k)) = j :=
  funext fun a => match a with | ⟨0, _⟩ => rfl | ⟨1, _⟩ => rfl

/-- the widths at the feature, under the indicator -/
theorem route_d (j : S16x64.Idx) (k : Fin 131072) :
    idx_main_v7 (idx_main_v10 (idx_main_v17 j k)) = ix1 (j 0) :=
  funext fun a => match a with | ⟨0, _⟩ => rfl

/-- and under the last quotient. -/
theorem route_q (j : S16x64.Idx) : idx_main_v20 (idx_main_v21 j) = ix1 (j 0) :=
  funext fun a => match a with | ⟨0, _⟩ => rfl

/-- The reference's indicator array at (sample `k`, bin `j`) is `ind` of the three routed operands. -/
theorem indicator_apply (x0 : (⟨S128x1024x16, .f32⟩ : BufTy).Contents (Elt Ideal)) (x1 : (⟨S16x64, .f32⟩ : BufTy).Contents (Elt Ideal))
    (x2 : (⟨S16, .f32⟩ : BufTy).Contents (Elt Ideal)) (j : S16x64.Idx) (k : Fin 131072) :
    val_main_v16 (F := Ideal) x0 x1 x2 (idx_main_v17 j k)
      = ind (val_main_v0 (F := Ideal) x0 (ix2 k (j 0))) (x1 j) (x2 (ix1 (j 0))) := by
  rw [val_main_v16_apply, val_main_v15_apply, val_main_v13_apply, val_main_v14_apply, val_main_cst_1_apply,
    val_main_v11_apply, val_main_v12_apply, val_main_cst_0_apply, val_main_v10_apply, val_main_v9_apply,
    val_main_v7_apply, val_main_v8_apply, val_main_cst_apply, val_main_v6_apply, val_main_v5_apply,
    val_main_v3_apply, val_main_v1_apply, val_main_v4_apply, val_main_v2_apply, route_x, route_l, route_d]
  rfl

/-- The reference's density stage is the specification's density of the flattened samples, the centres and the widths. -/
theorem density_eq (x0 : (⟨S128x1024x16, .f32⟩ : BufTy).Contents (Elt Ideal)) (x1 : (⟨S16x64, .f32⟩ : BufTy).Contents (Elt Ideal))
    (x2 : (⟨S16, .f32⟩ : BufTy).Contents (Elt Ideal)) :
    val_main_v22 (F := Ideal) x0 x1 x2 = dens (val_main_v0 (F := Ideal) x0) x1 x2 := by
  funext j
  rw [val_main_v22_apply, val_main_v19_apply, val_main_v17_apply, val_main_v18_apply, val_main_cst_3_apply,
    val_main_v21_apply, val_main_v20_apply, val_main_cst_2_apply, route_q]
  simp only [indicator_apply]
  unfold dens count
  rw [Ideal.ofBits_def, Ideal.ofBits_zero_f32, zero_add]
  rfl

/-- The reference's result is the loss of that density against the target. -/
theorem result_eq (x0 : (⟨S128x1024x16, .f32⟩ : BufTy).Contents (Elt Ideal)) (x1 : (⟨S16x64, .f32⟩ : BufTy).Contents (Elt Ideal))
    (x2 : (⟨S16, .f32⟩ : BufTy).Contents (Elt Ideal)) (x3 : (⟨S16x64, .f32⟩ : BufTy).Contents (Elt Ideal)) :
    val_main_v29 (F := Ideal) x0 x1 x2 x3 = loss (dens (val_main_v0 (F := Ideal) x0) x1 x2) x3 := by
  rw [← density_eq]
  rfl

end Cert.Histo.Ref

end
-- ==== Proof.Pieces.lean ====
/-
  What one grid point leaves behind, as values.

  The body keeps a running count in a scratch block carried from one grid point to the next.  At the first point it
  stores the zero block and then adds the tile's counts to what it reads back; at every later point it adds the tile's
  counts to what the point before left; and at the last point it also reads the updated scratch back, divides it by the
  number of samples and by the bin widths, and stores that as the output block.  Every load and store goes through the
  whole staging buffer, so each is read off as the stored value itself.
-/
import proofs.«126333_j79645873537299_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Histo.Kernel

open Cert.KernelIdeal Cert.KernelIdeal.Gen

variable {F : FTy → Type} [FloatOps F]

/-- The whole-buffer rectangle starts at the origin. -/
theorem hz : (![0, 0] : Fin 2 → Nat) = fun _ => 0 := funext fun a => by fin_cases a <;> rfl

/-- At the first grid point the scratch ends at the tile's counts added to the zero block just stored. -/
theorem scratch_first (c : Dev nD) (i : grid0.Coords) (arg1 : Memref sig .tc .vmem S512x16 .f32) (harg1 : arg1.IsWhole) (arg2 : Memref sig .tc .vmem S16x64 .f32) (harg2 : arg2.IsWhole) (arg3 : Memref sig .tc .vmem S16x1 .f32) (harg3 : arg3.IsWhole) (arg4 : Memref sig .tc .vmem S16x64 .f32) (harg4 : arg4.IsWhole) (arg5 : Memref sig .tc .vmem S16x64 .f32) (harg5 : arg5.IsWhole) (hc0 : cond0_0 i) (hc1 : ¬cond0_1 i)
    (x0 : Vec F S512x16 .f32) (x1 : Vec F S16x64 .f32) (x2 : Vec F S16x1 .f32) :
    sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S16x64) hz, View.readCov_unit_zero (S := S16x64) _ hz]
  simp only [View.readAt_eq_ld, harg1.read_unread, harg2.read_unread, harg3.read_unread, harg5.read_unread,
    View.ld_unit_zero (S := S512x16) hz, View.ld_unit_zero (S := S16x64) hz, View.ld_unit_zero (S := S16x1) hz]

/-- At a middle grid point the scratch ends at the tile's counts added to what the point before left. -/
theorem scratch_middle (c : Dev nD) (i : grid0.Coords) (arg1 : Memref sig .tc .vmem S512x16 .f32) (harg1 : arg1.IsWhole) (arg2 : Memref sig .tc .vmem S16x64 .f32) (harg2 : arg2.IsWhole) (arg3 : Memref sig .tc .vmem S16x1 .f32) (harg3 : arg3.IsWhole) (arg4 : Memref sig .tc .vmem S16x64 .f32) (harg4 : arg4.IsWhole) (arg5 : Memref sig .tc .vmem S16x64 .f32) (harg5 : arg5.IsWhole) (hc0 : ¬cond0_0 i) (hc1 : ¬cond0_1 i)
    (x0 : Vec F S512x16 .f32) (x1 : Vec F S16x64 .f32) (x2 : Vec F S16x1 .f32) (xs0 : Vec F S16x64 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg3.read_unread, harg5.read_unread,
    View.ld_unit_zero (S := S512x16) hz, View.ld_unit_zero (S := S16x64) hz, View.ld_unit_zero (S := S16x1) hz]

/-- At the last grid point the scratch is updated in the same way. -/
theorem scratch_last (c : Dev nD) (i : grid0.Coords) (arg1 : Memref sig .tc .vmem S512x16 .f32) (harg1 : arg1.IsWhole) (arg2 : Memref sig .tc .vmem S16x64 .f32) (harg2 : arg2.IsWhole) (arg3 : Memref sig .tc .vmem S16x1 .f32) (harg3 : arg3.IsWhole) (arg4 : Memref sig .tc .vmem S16x64 .f32) (harg4 : arg4.IsWhole) (arg5 : Memref sig .tc .vmem S16x64 .f32) (harg5 : arg5.IsWhole) (hc0 : ¬cond0_0 i) (hc1 : cond0_1 i)
    (x0 : Vec F S512x16 .f32) (x1 : Vec F S16x64 .f32) (x2 : Vec F S16x1 .f32) (xs0 : Vec F S16x64 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S512x16) hz, View.ld_unit_zero (S := S16x64) hz, View.ld_unit_zero (S := S16x1) hz]

/-- At the last grid point the output block is the normalisation of the scratch as just updated. -/
theorem output_last (c : Dev nD) (i : grid0.Coords) (arg1 : Memref sig .tc .vmem S512x16 .f32) (harg1 : arg1.IsWhole) (arg2 : Memref sig .tc .vmem S16x64 .f32) (harg2 : arg2.IsWhole) (arg3 : Memref sig .tc .vmem S16x1 .f32) (harg3 : arg3.IsWhole) (arg4 : Memref sig .tc .vmem S16x64 .f32) (harg4 : arg4.IsWhole) (arg5 : Memref sig .tc .vmem S16x64 .f32) (harg5 : arg5.IsWhole) (hc0 : ¬cond0_0 i) (hc1 : cond0_1 i)
    (x0 : Vec F S512x16 .f32) (x1 : Vec F S16x64 .f32) (x2 : Vec F S16x1 .f32) (xs0 : Vec F S16x64 .f32) :
    out0_C_3 c i arg1 harg1 arg2 harg2 arg3 harg3 arg4 harg4 arg5 harg5 hc0 hc1 x0 x1 x2 xs0 = k0_pay3 (k0_pay2 x0 x1 x2 xs0) x2 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S16x64) _ hz]
  simp only [View.readAt_eq_ld, harg1.read_unread, harg2.read_unread, harg3.read_unread, harg5.read_unread,
    View.ld_unit_zero (S := S512x16) hz, View.ld_unit_zero (S := S16x64) hz, View.ld_unit_zero (S := S16x1) hz]

end Cert.Histo.Kernel

end
-- ==== Proof.Payload.lean ====
/-
  The body's arithmetic, read at one entry.

  Inside the kernel the three operands meet in a `[512, 16, 64]` array (tile row, feature, bin): the tile of samples is
  repeated along the bins, the centres along the tile rows, and the half widths along both.  There the indicator is
  taken entry by entry, summed over the tile rows, and added to the running count; the last point divides the count by
  the number of samples and by the widths.  Here each of those steps is read at one (feature, bin) entry, at the ideal
  values.
-/
import proofs.«126333_j79645873537299_1_alg».proof.Proof.Gen.KernelIdeal.Skeleton
import proofs.«126333_j79645873537299_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Histo.Kernel

open Cert.KernelIdeal Cert.KernelIdeal.Gen

/-! ## Where each operand sits in the `[512, 16, 64]` array -/

section Layout
variable {α : Type}

/-- The tile of samples, given a trailing unit axis and repeated along the bins, holds sample row `r`, feature `f` at
    every bin. -/
theorem samples_at (x : S512x16.Idx → α) (h1 : S512x16.ShapeCasts S512x16) (h2 : S512x16.ShapeCasts S512x16x1)
    (h3 : S512x16x1.Broadcasts S512x16x64) (r : Fin 512) (f : Fin 16) (b : Fin 64) :
    broadcastTo S512x16x64 (shapeCast S512x16x1 (shapeCast S512x16 x h1) h2) h3 (ix3 r f b) = x (ix2 r f) := by
  rw [shapeCast_self]
  refine (broadcastTo_apply _ h3 (ix3 r f b) (ix3 r f (0 : Fin 1)) (fun a => ?_)).trans ?_
  · match a with
    | ⟨0, _⟩ => show r.val = if (512 : Nat) = 1 then 0 else r.val; rw [if_neg (by decide)]
    | ⟨1, _⟩ => show f.val = if (16 : Nat) = 1 then 0 else f.val; rw [if_neg (by decide)]
    | ⟨2, _⟩ => show 0 = if (1 : Nat) = 1 then 0 else b.val; rw [if_pos rfl]
  · exact shapeCast_apply x h2 (ix3 r f (0 : Fin 1)) (ix2 r f) (by
      rw [Shape.rowMajor_val_two, Shape.rowMajor_val_three]
      show r.val * 16 + f.val = (r.val * 16 + f.val) * 1 + 0
      omega)

/-- The centres, given a leading unit axis and repeated along the tile rows, hold feature `f`, bin `b` at every row. -/
theorem centres_at (x : S16x64.Idx → α) (h2 : S16x64.ShapeCasts S1x16x64) (h3 : S1x16x64.Broadcasts S512x16x64)
    (r : Fin 512) (f : Fin 16) (b : Fin 64) :
    broadcastTo S512x16x64 (shapeCast S1x16x64 x h2) h3 (ix3 r f b) = x (ix2 f b) := by
  refine (broadcastTo_apply _ h3 (ix3 r f b) (ix3 (0 : Fin 1) f b) (fun a => ?_)).trans ?_
  · match a with
    | ⟨0, _⟩ => show 0 = if (1 : Nat) = 1 then 0 else r.val; rw [if_pos rfl]
    | ⟨1, _⟩ => show f.val = if (16 : Nat) = 1 then 0 else f.val; rw [if_neg (by decide)]
    | ⟨2, _⟩ => show b.val = if (64 : Nat) = 1 then 0 else b.val; rw [if_neg (by decide)]
  · exact shapeCast_apply x h2 (ix3 (0 : Fin 1) f b) (ix2 f b) (by
      rw [Shape.rowMajor_val_two, Shape.rowMajor_val_three]
      show f.val * 64 + b.val = (0 * 16 + f.val) * 64 + b.val
      omega)

/-- A column with one entry per feature, viewed `[1, 16, 1]`, holds feature `f`'s entry at `(0, f, 0)`. -/
theorem column_at (x : S16x1.Idx → α) (h1 : S16x1.ShapeCasts S16x1) (h2 : S16x1.ShapeCasts S1x16x1) (f : Fin 16) :
    shapeCast S1x16x1 (shapeCast S16x1 x h1) h2 (ix3 (0 : Fin 1) f (0 : Fin 1)) = x (ix2 f (0 : Fin 1)) := by
  rw [shapeCast_self]
  exact shapeCast_apply x h2 (ix3 (0 : Fin 1) f (0 : Fin 1)) (ix2 f (0 : Fin 1)) (by
    rw [Shape.rowMajor_val_two, Shape.rowMajor_val_three]
    show f.val * 1 + 0 = (0 * 16 + f.val) * 1 + 0
    omega)

/-- A `[1, 16, 1]` array repeated along tile rows and bins holds its feature-`f` entry at every `(r, f, b)`. -/
theorem widths_at (y : S1x16x1.Idx → α) (h3 : S1x16x1.Broadcasts S512x16x64) (r : Fin 512) (f : Fin 16) (b : Fin 64) :
    broadcastTo S512x16x64 y h3 (ix3 r f b) = y (ix3 (0 : Fin 1) f (0 : Fin 1)) :=
  broadcastTo_apply _ h3 (ix3 r f b) (ix3 (0 : Fin 1) f (0 : Fin 1)) (fun a =>
    match a with
    | ⟨0, _⟩ => by show 0 = if (1 : Nat) = 1 then 0 else r.val; rw [if_pos rfl]
    | ⟨1, _⟩ => by show f.val = if (16 : Nat) = 1 then 0 else f.val; rw [if_neg (by decide)]
    | ⟨2, _⟩ => by show 0 = if (1 : Nat) = 1 then 0 else b.val; rw [if_pos rfl])

/-- The column of widths repeated along the bins holds feature `f`'s width at every bin. -/
theorem divisor_at (x : S16x1.Idx → α) (h1 : S16x1.ShapeCasts S16x1) (h3 : S16x1.Broadcasts S16x64) (f : Fin 16) (b : Fin 64) :
    broadcastTo S16x64 (shapeCast S16x1 x h1) h3 (ix2 f b) = x (ix2 f (0 : Fin 1)) := by
  rw [shapeCast_self]
  exact broadcastTo_apply _ h3 (ix2 f b) (ix2 f (0 : Fin 1)) (fun a =>
    match a with
    | ⟨0, _⟩ => by show f.val = if (16 : Nat) = 1 then 0 else f.val; rw [if_neg (by decide)]
    | ⟨1, _⟩ => by show 0 = if (1 : Nat) = 1 then 0 else b.val; rw [if_pos rfl])

end Layout

/-! ## The tile's indicators -/

/-- The indicator array of one tile, `[512, 16, 64]`, as the body builds it from the tile of samples, the centres and the
    column of widths. -/
def tileInd (x0 : Vec Ideal S512x16 .f32) (x1 : Vec Ideal S16x64 .f32) (x2 : Vec Ideal S16x1 .f32) : FVec Ideal S512x16x64 .f32 :=
  sitofp .f32 (extui 32 (cmpf .ogt
    (maximumf
      (subf
        (broadcastTo S512x16x64
          (mulf (shapeCast S1x16x1 (shapeCast S16x1 x2 shapeCasts_S16x1_S16x1) shapeCasts_S16x1_S1x16x1)
            (broadcast S1x16x1 (Scalar.ofBits (F := Ideal) .f32 0x3F000000#32)))
          broadcasts_S1x16x1_S512x16x64)
        (absf (subf
          (broadcastTo S512x16x64 (shapeCast S512x16x1 (shapeCast S512x16 x0 shapeCasts_S512x16_S512x16) shapeCasts_S512x16_S512x16x1)
            broadcasts_S512x16x1_S512x16x64)
          (broadcastTo S512x16x64 (shapeCast S1x16x64 x1 shapeCasts_S16x64_S1x16x64) broadcasts_S1x16x64_S512x16x64))))
      (broadcast S512x16x64 (Scalar.ofBits (F := Ideal) .f32 0x00000000#32)))
    (broadcast S512x16x64 (Scalar.ofBits (F := Ideal) .f32 0x00000000#32))) natLt_1_32)

/-- Its entry at tile row `r`, feature `f`, bin `b` is the indicator of that sample against that bin. -/
theorem tileInd_apply (x0 : Vec Ideal S512x16 .f32) (x1 : Vec Ideal S16x64 .f32) (x2 : Vec Ideal S16x1 .f32)
    (r : Fin 512) (f : Fin 16) (b : Fin 64) :
    tileInd x0 x1 x2 (ix3 r f b) = ind (x0 (ix2 r f)) (x1 (ix2 f b)) (x2 (ix2 f (0 : Fin 1))) := by
  show FloatOps.sitofp (F := Ideal) .f32 ((FloatOps.cmpf (F := Ideal) .ogt
      (FloatOps.maximumf
        (FloatOps.subf
          (broadcastTo S512x16x64
            (mulf (shapeCast S1x16x1 (shapeCast S16x1 x2 shapeCasts_S16x1_S16x1) shapeCasts_S16x1_S1x16x1)
              (broadcast S1x16x1 (Scalar.ofBits (F := Ideal) .f32 0x3F000000#32)))
            broadcasts_S1x16x1_S512x16x64 (ix3 r f b))
          (FloatOps.absf (FloatOps.subf
            (broadcastTo S512x16x64 (shapeCast S512x16x1 (shapeCast S512x16 x0 shapeCasts_S512x16_S512x16) shapeCasts_S512x16_S512x16x1)
              broadcasts_S512x16x1_S512x16x64 (ix3 r f b))
            (broadcastTo S512x16x64 (shapeCast S1x16x64 x1 shapeCasts_S16x64_S1x16x64) broadcasts_S1x16x64_S512x16x64 (ix3 r f b)))))
        (Scalar.ofBits (F := Ideal) .f32 0x00000000#32))
      (Scalar.ofBits (F := Ideal) .f32 0x00000000#32)).setWidth 32) = _
  rw [sitofp_widen, samples_at, centres_at, widths_at]
  show FloatOps.uitofp (F := Ideal) .f32 (FloatOps.cmpf (F := Ideal) .ogt
      (FloatOps.maximumf
        (FloatOps.subf
          (FloatOps.mulf (shapeCast S1x16x1 (shapeCast S16x1 x2 shapeCasts_S16x1_S16x1) shapeCasts_S16x1_S1x16x1 (ix3 (0 : Fin 1) f (0 : Fin 1)))
            (Scalar.ofBits (F := Ideal) .f32 0x3F000000#32))
          (FloatOps.absf (FloatOps.subf (x0 (ix2 r f)) (x1 (ix2 f b)))))
        (Scalar.ofBits (F := Ideal) .f32 0x00000000#32))
      (Scalar.ofBits (F := Ideal) .f32 0x00000000#32)) = _
  rw [column_at]
  rfl

/-! ## The three stored values -/

/-- The block the first point stores before accumulating is zero everywhere. -/
theorem reset_apply (j : S16x64.Idx) : k0_pay1 (F := Ideal) j = 0 := by
  have e : k0_pay1 (F := Ideal) = broadcast S16x64 (Scalar.ofBits (F := Ideal) .f32 0x00000000#32) := shapeCast_self _ _
  rw [e]
  exact Ideal.ofBits_zero_f32

/-- The updated count at feature `f`, bin `b`: the count so far plus the tile's indicators summed over its 512 rows. -/
theorem update_apply (x0 : Vec Ideal S512x16 .f32) (x1 : Vec Ideal S16x64 .f32) (x2 : Vec Ideal S16x1 .f32)
    (a : Vec Ideal S16x64 .f32) (f : Fin 16) (b : Fin 64) :
    k0_pay2 x0 x1 x2 a (ix2 f b)
      = a (ix2 f b) + ∑ r : Fin 512, ind (x0 (ix2 r f)) (x1 (ix2 f b)) (x2 (ix2 f (0 : Fin 1))) := by
  have e : k0_pay2 x0 x1 x2 a
      = addf a (multiReduction .add [0] S16x64 (tileInd x0 x1 x2) 0x00000000#32 reduces_S512x16x64_S16x64 (.inl rfl) rfl) :=
    shapeCast_self _ _
  rw [e]
  refine congrArg (a (ix2 f b) + ·) ?_
  refine (Ideal.multiReduction_add_single (tileInd x0 x1 x2) 0x00000000#32 reduces_S512x16x64_S16x64 (.inl rfl) rfl (ix2 f b)).trans ?_
  refine Finset.sum_congr rfl fun r _ => ?_
  have hidx : reduces_S512x16x64_S16x64.lift (ix2 f b) r = ix3 r f b :=
    funext fun d => Fin.ext (by match d with | ⟨0, _⟩ => rfl | ⟨1, _⟩ => rfl | ⟨2, _⟩ => rfl)
  rw [hidx]
  exact tileInd_apply x0 x1 x2 r f b

/-- The output at feature `f`, bin `b`: the count over the number of samples, over the feature's bin width. -/
theorem normalise_apply (a : Vec Ideal S16x64 .f32) (x2 : Vec Ideal S16x1 .f32) (f : Fin 16) (b : Fin 64) :
    k0_pay3 a x2 (ix2 f b)
      = Ideal.div (Ideal.div (a (ix2 f b)) (Ideal.ofBits .f32 0x48000000#32)) (x2 (ix2 f (0 : Fin 1))) := by
  show Ideal.div (Ideal.div (a (ix2 f b)) (Ideal.ofBits .f32 0x48000000#32))
      (broadcastTo S16x64 (shapeCast S16x1 x2 shapeCasts_S16x1_S16x1) broadcasts_S16x1_S16x64 (ix2 f b)) = _
  rw [divisor_at]

end Cert.Histo.Kernel

end
-- ==== Proof.Accum.lean ====
/-
  The running count, point by point, and the density the kernel writes back.

  Grid point `t` sees samples `512·t … 512·t + 511` (the tile is block `t` of the flattened sample array), all the
  centres and all the widths.  By induction on the point, the scratch after point `n` holds, at feature `f` and bin `b`,
  the count over the first `512·(n + 1)` samples; so after the last point it holds the count over all of them, and the
  output block stored there is the specification's density.  That block is the whole output array and is written back
  once, after the last point.
-/
import proofs.«126333_j79645873537299_1_alg».proof.Proof.Pieces
import proofs.«126333_j79645873537299_1_alg».proof.Proof.Payload

noncomputable section

open scoped BigOperators
open Idealize.ShloMosaic Idealize.ShloMosaic.TcCoe Idealize.SL.Sem Idealize.ShloMosaic.ValueIdx
open Idealize.ShloMosaic.Pipeline (Dat)

namespace Cert.Histo.Kernel

open Cert.KernelIdeal Cert.KernelIdeal.Gen

variable (m : (ℓ : Loc nD τ sig) → Buf (Elt Ideal) ℓ) (ρ : Dev nD → PrngReg)

/-! ## The arrays the region finds, and its blocks of them -/

/-- The flattened samples, `[131072, 16]`. -/
abbrev samples (c : Dev nD) : Vec Ideal S131072x16 .f32 := V m c main_v0
/-- The bin centres, `[16, 64]`. -/
abbrev centres (c : Dev nD) : Vec Ideal S16x64 .f32 := V m c main_arg1
/-- The bin widths as a column, `[16, 1]`. -/
abbrev widthCol (c : Dev nD) : Vec Ideal S16x1 .f32 := V m c main_v1
/-- The bin widths by feature. -/
abbrev widths (c : Dev nD) : SD.Idx → Ideal .f32 := fun d => widthCol m c (ix2 (d 0) (0 : Fin 1))

/-- The tile of samples at point `t`. -/
abbrev tile (c : Dev nD) (t : Fin cfg0.N) : Vec Ideal S512x16 .f32 := iblk m c 0 t
/-- The centres as point `t` sees them. -/
abbrev centresAt (c : Dev nD) (t : Fin cfg0.N) : Vec Ideal S16x64 .f32 := iblk m c 1 t
/-- The width column as point `t` sees it. -/
abbrev widthsAt (c : Dev nD) (t : Fin cfg0.N) : Vec Ideal S16x1 .f32 := iblk m c 2 t

/-- The sample window's block index at point `t` is `(t, 0)`; the other windows stay at block `(0, 0)`. -/
theorem index_samples : ∀ t : Fin cfg0.N, win0_0.index t 0 = t.val ∧ win0_0.index t 1 = 0 :=
  (by decide +kernel : ∀ t : Fin grid0.N, win0_0.index t 0 = t.val ∧ win0_0.index t 1 = 0)
theorem index_centres : ∀ t : Fin cfg0.N, win0_1.index t 0 = 0 ∧ win0_1.index t 1 = 0 :=
  (by decide +kernel : ∀ t : Fin grid0.N, win0_1.index t 0 = 0 ∧ win0_1.index t 1 = 0)
theorem index_widths : ∀ t : Fin cfg0.N, win0_2.index t 0 = 0 ∧ win0_2.index t 1 = 0 :=
  (by decide +kernel : ∀ t : Fin grid0.N, win0_2.index t 0 = 0 ∧ win0_2.index t 1 = 0)

/-- A grid point is below 256. -/
theorem point_lt (t : Fin cfg0.N) : t.val < 256 := lt_of_lt_of_eq t.isLt (show cfg0.N = 256 from N_0)

/-- Row `r` of the tile at point `t` is sample `512·t + r`. -/
theorem tile_apply (c : Dev nD) (t : Fin cfg0.N) (r : Fin 512) (f : Fin 16)
    (h : 512 * t.val + r.val < 131072) :
    tile m c t (ix2 r f) = samples m c (ix2 ⟨512 * t.val + r.val, h⟩ f) := by
  have hi := index_samples t
  show iblk m c 0 t (ix2 r f) = V m c main_v0 _
  unfold iblk
  rw [View.read_apply]
  show V m c main_v0 _ = V m c main_v0 _
  refine congrArg (V m c main_v0) (funext fun a => Fin.ext ?_)
  match a with
  | ⟨0, _⟩ => show win0_0.index t 0 * 512 + 1 * r.val = 512 * t.val + r.val; rw [hi.1]; omega
  | ⟨1, _⟩ => show win0_0.index t 1 * 16 + 1 * f.val = f.val; rw [hi.2]; omega

/-- Every point sees all the centres. -/
theorem centresAt_apply (c : Dev nD) (t : Fin cfg0.N) (f : Fin 16) (b : Fin 64) :
    centresAt m c t (ix2 f b) = centres m c (ix2 f b) := by
  have hi := index_centres t
  show iblk m c 1 t (ix2 f b) = V m c main_arg1 _
  unfold iblk
  rw [View.read_apply]
  show V m c main_arg1 _ = V m c main_arg1 _
  refine congrArg (V m c main_arg1) (funext fun a => Fin.ext ?_)
  match a with
  | ⟨0, _⟩ => show win0_1.index t 0 * 16 + 1 * f.val = f.val; rw [hi.1]; omega
  | ⟨1, _⟩ => show win0_1.index t 1 * 64 + 1 * b.val = b.val; rw [hi.2]; omega

/-- Every point sees all the widths. -/
theorem widthsAt_apply (c : Dev nD) (t : Fin cfg0.N) (f : Fin 16) :
    widthsAt m c t (ix2 f (0 : Fin 1)) = widthCol m c (ix2 f (0 : Fin 1)) := by
  have hi := index_widths t
  show iblk m c 2 t (ix2 f (0 : Fin 1)) = V m c main_v1 _
  unfold iblk
  rw [View.read_apply]
  show V m c main_v1 _ = V m c main_v1 _
  refine congrArg (V m c main_v1) (funext fun a => Fin.ext ?_)
  match a with
  | ⟨0, _⟩ => show win0_2.index t 0 * 16 + 1 * f.val = f.val; rw [hi.1]; omega
  | ⟨1, _⟩ => show win0_2.index t 1 * 1 + 1 * 0 = 0; rw [hi.2]

/-! ## One tile's contribution -/

/-- The indicators the body sums at point `t` are those of samples `512·t … 512·t + 511`. -/
theorem tile_terms (c : Dev nD) (t : Fin cfg0.N) (f : Fin 16) (b : Fin 64) :
    ∑ r : Fin 512, ind (tile m c t (ix2 r f)) (centresAt m c t (ix2 f b)) (widthsAt m c t (ix2 f (0 : Fin 1)))
      = ∑ r : Fin 512, term (samples m c) (centres m c) (widths m c) (ix2 f b) (512 * t.val + r.val) := by
  have ht := point_lt t
  refine Finset.sum_congr rfl fun r _ => ?_
  have h : 512 * t.val + r.val < 131072 := by have := r.isLt; omega
  rw [term_lt _ _ _ _ _ h, tile_apply m c t r f h, centresAt_apply, widthsAt_apply]

/-- So one update of the count at point `t`, from the count over the first `512·t` samples, gives the count over the first
    `512·(t + 1)`. -/
theorem update_count (c : Dev nD) (t : Fin cfg0.N) (a : Vec Ideal S16x64 .f32) (f : Fin 16) (b : Fin 64)
    (ha : a (ix2 f b) = upto (samples m c) (centres m c) (widths m c) (ix2 f b) (512 * t.val)) :
    k0_pay2 (tile m c t) (centresAt m c t) (widthsAt m c t) a (ix2 f b)
      = upto (samples m c) (centres m c) (widths m c) (ix2 f b) (512 * (t.val + 1)) := by
  rw [update_apply, ha, tile_terms, upto_tile]

/-! ## The invariant -/

/-- After point `n` the scratch holds the count over the first `512·(n + 1)` samples. -/
theorem scratch_eq (c : Dev nD) : ∀ (n : ℕ) (h : n < cfg0.N) (f : Fin 16) (b : Fin 64),
    (outsAt0 m c n h).2 (ix2 f b) = upto (samples m c) (centres m c) (widths m c) (ix2 f b) (512 * (n + 1))
  | 0, h, f, b => by
    have hA := outsAt0_A m c ⟨0, h⟩ rfl (by show ¬(0 % 256 = 255); decide)
    rw [show outsAt0 m c 0 h = outsAt0 m c (⟨0, h⟩ : Fin cfg0.N).val (⟨0, h⟩ : Fin cfg0.N).isLt from rfl, hA]
    dsimp only
    rw [scratch_first]
    exact update_count m c ⟨0, h⟩ _ f b (by rw [reset_apply]; exact (upto_zero _ _ _ _).symm)
  | n + 1, h, f, b => by
    have hN : n + 1 < 256 := lt_of_lt_of_eq h (show cfg0.N = 256 from N_0)
    have h0 : ¬(⟨n + 1, h⟩ : Fin cfg0.N).val % 256 = 0 := by dsimp only; omega
    have ih := scratch_eq c n (Nat.lt_of_succ_lt h) f b
    by_cases h1 : (⟨n + 1, h⟩ : Fin cfg0.N).val % 256 = 255
    · rw [show outsAt0 m c (n + 1) h = outsAt0 m c (⟨n + 1, h⟩ : Fin cfg0.N).val (⟨n + 1, h⟩ : Fin cfg0.N).isLt from rfl,
        outsAt0_C m c ⟨n + 1, h⟩ h0 h1]
      dsimp only
      rw [scratch_last]
      exact update_count m c ⟨n + 1, h⟩ _ f b ih
    · rw [show outsAt0 m c (n + 1) h = outsAt0 m c (⟨n + 1, h⟩ : Fin cfg0.N).val (⟨n + 1, h⟩ : Fin cfg0.N).isLt from rfl,
        outsAt0_B m c ⟨n + 1, h⟩ h0 h1]
      dsimp only
      rw [scratch_middle]
      exact update_count m c ⟨n + 1, h⟩ _ f b ih

/-! ## The output -/

/-- The density the specification assigns to the arrays the region finds. -/
abbrev density (c : Dev nD) : Vec Ideal S16x64 .f32 := dens (samples m c) (centres m c) (widths m c)

/-- The last point. -/
abbrev lastPoint : Fin cfg0.N := ⟨255, by rw [show cfg0.N = 256 from N_0]; decide⟩

/-- After the last point the output's staging buffer holds the density. -/
theorem output_eq (c : Dev nD) : (outsAt0 m c lastPoint.val lastPoint.isLt).1 = density m c := by
  funext j
  obtain ⟨f, b, rfl⟩ : ∃ (f : Fin 16) (b : Fin 64), j = ix2 f b := ⟨j 0, j 1, eq_ix2 j⟩
  have h0 : ¬lastPoint.val % 256 = 0 := by decide
  have h1 : lastPoint.val % 256 = 255 := by decide
  have ih := scratch_eq m c 254 (by rw [show cfg0.N = 256 from N_0]; decide) f b
  rw [outsAt0_C m c lastPoint h0 h1]
  dsimp only
  rw [output_last, normalise_apply, update_count m c lastPoint _ f b ih,
    show 512 * (lastPoint.val + 1) = 131072 from rfl, upto_all]
  exact congrArg (Ideal.div _) (widthsAt_apply m c lastPoint f)

end Cert.Histo.Kernel

end
-- ==== Proof.KernelValue.lean ====
/-
  The kernel's result.

  The output block at the last point is the whole `[16, 64]` output array, and it is the only block ever written back;
  so the array ends holding the density.  The host lines after the region then compute the loss of that array against
  the targets, which no line before them has touched.  Read in terms of the four arguments, the samples the region finds
  are the flattened first argument, the centres the second, and the width column the third argument stood up as a
  column.
-/
import proofs.«126333_j79645873537299_1_alg».proof.Proof.Accum
import proofs.«126333_j79645873537299_1_alg».proof.Proof.Loss
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Histo.Kernel

open Cert.KernelIdeal Cert.KernelIdeal.Gen

variable (m : (ℓ : Loc nD τ sig) → Buf (Elt Ideal) ℓ) (ρ : Dev nD → PrngReg)

/-! ## The output array after the region -/

/-- The output window's block index is `(0, 0)` at every point. -/
theorem index_out : ∀ t : Fin cfg0.N, win0_3.index t 0 = 0 ∧ win0_3.index t 1 = 0 :=
  (by decide +kernel : ∀ t : Fin grid0.N, win0_3.index t 0 = 0 ∧ win0_3.index t 1 = 0)

/-- The one write-back, after the last point, writes the density: block `(0, 0)` of the array is the array. -/
theorem flushed_eq (c : Dev nD) (t : Fin cfg0.N) (hf : (cfg0.win 3).flush t = true) :
    (dats m 0 c).flushed 3 t = ((cfg0.win 3).blk t).view.read (Elt Ideal) (density m c) := by
  have ht : t.val = 255 := by have := (flush0_3 t).mp hf; have := point_lt t; omega
  obtain rfl : t = lastPoint := Fin.ext ht
  have hi := index_out lastPoint
  show (cfg0.win 3).cut (grid0.coords lastPoint) ((dats m 0 c).after 3 lastPoint) = _
  rw [after0_3, output_eq]
  funext j
  show density m c j = density m c (((cfg0.win 3).blk lastPoint).view.emb j)
  refine congrArg (density m c) (funext fun a => Fin.ext ?_)
  match a with
  | ⟨0, _⟩ => show (j 0).val = win0_3.index lastPoint 0 * 16 + 1 * (j 0).val; rw [hi.1]; omega
  | ⟨1, _⟩ => show (j 1).val = win0_3.index lastPoint 1 * 64 + 1 * (j 1).val; rw [hi.2]; omega

/-- An index of the output array is in point `t`'s block iff each coordinate is in the block's range on its axis. -/
theorem mem_out (t : Fin cfg0.N) (i : S16x64.Idx) :
    i ∈ ((cfg0.win 3).blk t).view.set
      ↔ ∀ a : Fin 2, win0_3.index t a * S16x64.size a ≤ (i a).val ∧ (i a).val < win0_3.index t a * S16x64.size a + S16x64.size a := by
  show i ∈ ((View.whole main_v2).slice (win0_3.rect t)).set ↔ _
  rw [View.set_slice_whole, Rect.mem_set_unit]
  exact Iff.rfl

/-- The output array ends holding the density: the last point's block covers it. -/
theorem final_eq (c : Dev nD) : (dats m 0 c).arrAt 3 cfg0.N = density m c :=
  (dats m 0 c).arrAt_eq_of_cover 3 (density m c) (flushed_eq m c) fun i => by
    have hi := index_out lastPoint
    refine ⟨lastPoint, (flush0_3 lastPoint).mpr (by decide), ?_⟩
    rw [mem_out]
    intro a
    have h0 : (i 0).val < 16 := (i 0).isLt
    have h1 : (i 1).val < 64 := (i 1).isLt
    match a with
    | ⟨0, _⟩ => show win0_3.index lastPoint 0 * 16 ≤ (i 0).val ∧ (i 0).val < win0_3.index lastPoint 0 * 16 + 16; rw [hi.1]; omega
    | ⟨1, _⟩ => show win0_3.index lastPoint 1 * 64 ≤ (i 1).val ∧ (i 1).val < win0_3.index lastPoint 1 * 64 + 64; rw [hi.2]; omega

/-! ## The host lines after the region -/

/-- They compute the loss of the output array against the targets. -/
theorem tail_eq (c : Dev nD) :
    Pipeline.afterTail₀ cfgs (dats m) 0 (V0 m) [hostOps1] c main_v9
      = loss (density m c) (m ((c : Thread nD τ).loc main_arg3)) := by
  unfold Pipeline.afterTail₀
  show StableHlo.after hostOps1 _ (Proc.devRef .tc main_v9) = _
  after_results
  have e2 : Pipeline.withArrays (cfgs 0).spec c (V0 m c) (fun w => (dats m 0 c).arrAt w (cfgs 0).N) (Proc.devRef .tc main_v2)
      = density m c :=
    (Pipeline.withArrays_arr spec0 launch0.win.arr_inj c _ _ 3).trans (final_eq m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [e2, e3]
  rfl

/-! ## The arrays the region finds, in terms of the arguments -/

/-- The samples are the first argument flattened to `[131072, 16]`. -/
theorem samples_eq (c : Dev nD) :
    samples m c = shapeCast S131072x16 (m ((c : Thread nD τ).loc main_arg0)) shapeCasts_S128x1024x16_S131072x16 := by
  show StableHlo.after hostOps0 (fun b => m (c, b)) (Proc.devRef .tc main_v0) = _
  after_results
  rfl

/-- The centres are the second argument. -/
theorem centres_eq (c : Dev nD) : centres m c = m ((c : Thread nD τ).loc main_arg1) := V_main_arg1 m c

/-- The width column is the third argument stood up as a column, -/
theorem widthCol_eq (c : Dev nD) :
    widthCol m c = shapeCast S16x1 (m ((c : Thread nD τ).loc main_arg2)) shapeCasts_S16_S16x1 := by
  show StableHlo.after hostOps0 (fun b => m (c, b)) (Proc.devRef .tc main_v1) = _
  after_results
  rfl

/-- so the widths by feature are the third argument. -/
theorem widths_eq (c : Dev nD) : widths m c = m ((c : Thread nD τ).loc main_arg2) := by
  funext d
  show widthCol m c (ix2 (d 0) (0 : Fin 1)) = _
  rw [widthCol_eq]
  exact shapeCast_apply _ shapeCasts_S16_S16x1 (ix2 (d 0) (0 : Fin 1)) d (by
    rw [Shape.rowMajor_val_one, Shape.rowMajor_val_two]
    show (d 0).val = (d 0).val * 1 + 0
    omega)

/-- The density of the arrays the region finds is the density of the arguments. -/
theorem density_eq (c : Dev nD) :
    density m c = dens (shapeCast S131072x16 (m ((c : Thread nD τ).loc main_arg0)) shapeCasts_S128x1024x16_S131072x16)
      (m ((c : Thread nD τ).loc main_arg1)) (m ((c : Thread nD τ).loc main_arg2)) := by
  show dens (samples m c) (centres m c) (widths m c) = _
  rw [samples_eq, centres_eq, widths_eq]

/-! ## The run, read -/

/-- Every weakly fair execution of the kernel's program ends with the result at the loss of the arguments' density
    against the fourth argument, and the arguments unchanged. -/
theorem run : θ_run defs (onTc (τ := τ) (main (F := Ideal))) ⟨m, fun _ => 0, ρ⟩ fun r => ∀ c : Dev nD,
      r.2.mem ((c : Thread nD τ).loc main_v9)
        = loss (dens (shapeCast S131072x16 (m ((c : Thread nD τ).loc main_arg0)) shapeCasts_S128x1024x16_S131072x16)
            (m ((c : Thread nD τ).loc main_arg1)) (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(((h c).2 main_v9 (Pipeline.mem_restRefs_of main_v9 (by decide) (by decide))).trans (tail_eq m c)).trans
        (by rw [density_eq]),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Histo.Kernel

end
-- ==== Proof.lean ====
/-
  A histogram loss on the TPU against its jnp reference, over the extended reals.

  From samples `x` (flattened to `[131072, 16]`), bin centres `l` (`[16, 64]`), bin widths `d` (`[16]`) and target
  densities `a` (`[16, 64]`), both programs compute

      loss = mean_f mean_b | (∑ₙ [max (d_f·½ − |x_{n f} − l_{f b}|) 0 > 0]) / 131072 / d_f − a_{f b} |.

  The kernel walks the samples in 256 tiles of 512 rows, keeping the running count of each bin in a scratch block: the
  first tile starts it from zero, every tile adds its own indicators summed over its rows, and after the last tile the
  count is divided by the number of samples and by the bin widths and written out; the host then takes the two means.
  The reference forms all `131072 × 16 × 64` indicators at once and sums them along the sample axis from zero.

  The two agree entry by entry: the indicator is the same function of the same three numbers on both sides (the
  kernel's 0/1 arrives through a widened integer read signed, the reference's through the bit read unsigned; both are 0
  or 1), and a sum over all the samples is the sum, tile after tile, of the sums over the tiles — addition on the
  extended reals is commutative and associative with `0` neutral, so no input has to be finite for this.  The divisions
  and the closing means are the same operations applied to equal arrays.

  The ideal pass rewrote nothing in the kernel, so the idealization claim is trivially true.  The kernel's two frames
  are the generated ones; the reference's frame is its generated run with the result dropped.
-/
import proofs.«126333_j79645873537299_1_alg».proof.Defs
import proofs.«126333_j79645873537299_1_alg».proof.Proof.Gen.Kernel
import proofs.«126333_j79645873537299_1_alg».proof.Proof.Gen.Kernel.Skeleton
import proofs.«126333_j79645873537299_1_alg».proof.Proof.Gen.Kernel.Launch
import proofs.«126333_j79645873537299_1_alg».proof.Proof.Gen.Kernel.Points
import proofs.«126333_j79645873537299_1_alg».proof.Proof.Gen.Kernel.Frame
import proofs.«126333_j79645873537299_1_alg».proof.Proof.Gen.KernelIdeal
import proofs.«126333_j79645873537299_1_alg».proof.Proof.Gen.KernelIdeal.Skeleton
import proofs.«126333_j79645873537299_1_alg».proof.Proof.Gen.KernelIdeal.Launch
import proofs.«126333_j79645873537299_1_alg».proof.Proof.Gen.KernelIdeal.Points
import proofs.«126333_j79645873537299_1_alg».proof.Proof.Gen.KernelIdeal.Frame
import proofs.«126333_j79645873537299_1_alg».proof.Proof.Gen.ReferenceIdeal
import proofs.«126333_j79645873537299_1_alg».proof.Proof.Gen.Pre_finite_inputs
import proofs.«126333_j79645873537299_1_alg».proof.Proof.Gen.ReferenceIdeal.Run
import proofs.«126333_j79645873537299_1_alg».proof.Proof.Gen.ReferenceIdeal.Read
import proofs.«126333_j79645873537299_1_alg».proof.Proof.RefValue
import proofs.«126333_j79645873537299_1_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the four arguments both programs end at the loss of the arguments' density against the
    targets: the kernel by its count accumulated tile by tile, the reference by its one sum over the samples. -/
theorem algebraic : Cert.algebraic_KernelIdeal_ReferenceIdeal := by
  intro m ρ m' ρ' _ hagree
  refine ⟨_, Cert.Histo.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Histo.Ref.result_eq, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
